-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x16 : Shape := ⟨2, ![256, 16]⟩
abbrev S256x256 : Shape := ⟨2, ![256, 256]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  main_v38

def fn_part1 {F : FTy → Type} [FloatOps F] (main_arg4 : FVec F S256x16 .f32) (main_arg5 : FVec F S256x256 .f32) (main_arg6 : FVec F S256 .f32) (main_arg7 : FVec F S256x256 .f32) (main_v13 : IVec S_ 1) (main_v16 : IVec S256x16 1) : IVec S_ 1 :=
  let main_c_5 : IVec S_ 1 := constantI S_ 1 1#1
  let main_v17 : IVec S_ 1 := (fun x v => Host.reduce IntOp.andi x v reducesTo_S256x16_S_d0_1 h_S_) main_v16 main_c_5
  let main_v18 : IVec S_ 1 := andi main_v13 main_v17
  let main_v19 : FVec F S256x16 .f32 := Host.absf main_arg4
  let main_cst_6 : FVec F S_ .f32 := constant S_ .f32 0x7F800000#32
  let main_v20 : FVec F S256x16 .f32 := broadcastInDim S256x16 ![] bcast_S_S256x16 main_cst_6
  let main_v21 : IVec S256x16 1 := cmpf .olt main_v19 main_v20
  let main_c_7 : IVec S_ 1 := constantI S_ 1 1#1
  let main_v22 : IVec S_ 1 := (fun x v => Host.reduce IntOp.andi x v reducesTo_S256x16_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S262144x256 .f32) (main_arg1 : FVec F S262144x256 .f32) (main_arg2 : FVec F S262144x256 .f32) (main_arg3 : FVec F S256x16 .f32) (main_arg4 : FVec F S256x16 .f32) (main_arg5 : FVec F S256x256 .f32) (main_arg6 : FVec F S256 .f32) (main_arg7 : FVec F S256x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S262144x256 .f32 := Host.absf main_arg2
  let main_cst_2 : FVec F S_ .f32 := constant S_ .f32 0x7F800000#32
  let main_v10 : FVec F S262144x256 .f32 := broadcastInDim S262144x256 ![] bcast_S_S262144x256 main_cst_2
  let main_v11 : IVec S262144x256 1 := cmpf .olt main_v9 main_v10
  let main_c_3 : IVec S_ 1 := constantI S_ 1 1#1
  let main_v12 : IVec S_ 1 := (fun x v => Host.reduce IntOp.andi x v reducesTo_S262144x256_S_d0_1 h_S_) main_v11 main_c_3
  let main_v13 : IVec S_ 1 := andi main_v8 main_v12
  let main_v14 : FVec F S256x16 .f32 := Host.absf main_arg3
  let main_cst_4 : FVec F S_ .f32 := constant S_ .f32 0x7F800000#32
  let main_v15 : FVec F S256x16 .f32 := broadcastInDim S256x16 ![] bcast_S_S256x16 main_cst_4
  let main_v16 : IVec S256x16 1 := cmpf .olt main_v14 main_v15
  fn_part1 (F := F) main_arg4 main_arg5 main_arg6 main_arg7 main_v13 main_v16
-- ==== Kernel.lean ====
abbrev S262144x256 : Shape := ⟨2, ![262144, 256]⟩
abbrev S256x16 : Shape := ⟨2, ![256, 16]⟩
abbrev S256x256 : Shape := ⟨2, ![256, 256]⟩
abbrev S256 : Shape := ⟨1, ![256]⟩
abbrev S16x256 : Shape := ⟨2, ![16, 256]⟩
abbrev S1x256 : Shape := ⟨2, ![1, 256]⟩
abbrev S2048x256 : Shape := ⟨2, ![2048, 256]⟩
abbrev S2048x16 : Shape := ⟨2, ![2048, 16]⟩
abbrev S2048 : Shape := ⟨1, ![2048]⟩
abbrev S2048x1 : Shape := ⟨2, ![2048, 1]⟩

abbrev nBuf : Space → Nat
  | .hbm => 17
  | .vmem => 13
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144x256, .f32⟩
  | .hbm, ⟨3, _⟩ => ⟨S256x16, .f32⟩
  | .hbm, ⟨4, _⟩ => ⟨S256x16, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x16, .bf16⟩
  | .hbm, ⟨9, _⟩ => ⟨S16x256, .f32⟩
  | .hbm, ⟨10, _⟩ => ⟨S16x256, .bf16⟩
  | .hbm, ⟨11, _⟩ => ⟨S256x256, .f32⟩
  | .hbm, ⟨12, _⟩ => ⟨S256x256, .bf16⟩
  | .hbm, ⟨13, _⟩ => ⟨S256x256, .f32⟩
  | .hbm, ⟨14, _⟩ => ⟨S256x256, .bf16⟩
  | .hbm, ⟨15, _⟩ => ⟨S1x256, .f32⟩
  | .hbm, ⟨16, _⟩ => ⟨S262144x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x16, .bf16⟩
  | .local _ .vmem, ⟨7, _⟩ => ⟨S16x256, .bf16⟩
  | .local _ .vmem, ⟨8, _⟩ => ⟨S256x256, .bf16⟩
  | .local _ .vmem, ⟨9, _⟩ => ⟨S1x256, .f32⟩
  | .local _ .vmem, ⟨10, _⟩ => ⟨S256x256, .bf16⟩
  | .local _ .vmem, ⟨11, _⟩ => ⟨S2048x256, .f32⟩
  | .local _ .vmem, ⟨12, _⟩ => ⟨S2048x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  transposes_S256x16_S16x256_1_0 : S256x16.Transposes [1, 0] S16x256
  transposes_S256x256_S256x256_1_0 : S256x256.Transposes [1, 0] S256x256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2048x16_S2048 : S2048x16.Reduces [1] S2048
  shapeCasts_S2048_S2048x1 : S2048.ShapeCasts S2048x1
  broadcasts_S2048x1_S2048x16 : S2048x1.Broadcasts S2048x16
  broadcasts_S1x256_S2048x256 : S1x256.Broadcasts S2048x256
  reduces_S2048x256_S2048 : S2048x256.Reduces [1] S2048
  broadcasts_S2048x1_S2048x256 : S2048x1.Broadcasts S2048x256
  dot_S2048x256_S256x16_S2048x16_1_0_0_1_n_n_wf : DotDims.WF S2048x256 S256x16 S2048x16 [1] [0] [0] [1] [] []
  dot_S2048x16_S16x256_S2048x256_1_0_0_1_n_n_wf : DotDims.WF S2048x16 S16x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S262144x256.size a
  hwx0_1 : ∀ i : grid0.Coords, EltTy.bits .f32 = 32 ∨ (Rect.block (s := S262144x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S262144x256.size a
  hwx0_2 : ∀ i : grid0.Coords, EltTy.bits .f32 = 32 ∨ (Rect.block (s := S262144x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S256x16.size a
  hwx0_3 : ∀ i : grid0.Coords, EltTy.bits .bf16 = 32 ∨ (Rect.block (s := S256x16) S256x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x256.size a
  hwx0_4 : ∀ i : grid0.Coords, EltTy.bits .bf16 = 32 ∨ (Rect.block (s := S16x256) S16x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S262144x256.size a
  hwx0_8 : ∀ i : grid0.Coords, EltTy.bits .f32 = 32 ∨ (Rect.block (s := S262144x256) S2048x256.size (cc0_transform_8 i) (hinb0_8 i)).WholeWords (EltTy.packing .f32)

variable [Facts₀]

def dot_S2048x256_S256x16_S2048x16_1_0_0_1_n_n : DotDims S2048x256 S256x16 S2048x16 where
  lhsContracting := [1]
  rhsContracting := [0]
  lhsNonContracting := [0]
  rhsNonContracting := [1]
  lhsBatch := []
  rhsBatch := []
  wf := dot_S2048x256_S256x16_S2048x16_1_0_0_1_n_n_wf
def dot_S2048x16_S16x256_S2048x256_1_0_0_1_n_n : DotDims S2048x16 S16x256 S2048x256 where
  lhsContracting := [1]
  rhsContracting := [0]
  lhsNonContracting := [0]
  rhsNonContracting := [1]
  lhsBatch := []
  rhsBatch := []
  wf := dot_S2048x16_S16x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S16x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x16 : Shape := ⟨2, ![256, 16]⟩
abbrev S256x256 : Shape := ⟨2, ![256, 256]⟩
abbrev S256 : Shape := ⟨1, ![256]⟩
abbrev S262144x16 : Shape := ⟨2, ![262144, 16]⟩
abbrev S_ : Shape := ⟨0, ![]⟩
abbrev S262144 : Shape := ⟨1, ![262144]⟩
abbrev S262144x1 : Shape := ⟨2, ![262144, 1]⟩
abbrev S16x256 : Shape := ⟨2, ![16, 256]⟩
abbrev S1x256 : Shape := ⟨2, ![1, 256]⟩

abbrev nBuf : Space → Nat
  | .hbm => 72
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144x256, .f32⟩
  | .hbm, ⟨3, _⟩ => ⟨S256x16, .f32⟩
  | .hbm, ⟨4, _⟩ => ⟨S256x16, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S262144x16, .f32⟩
  | .hbm, ⟨9, _⟩ => ⟨S262144x16, .f32⟩
  | .hbm, ⟨10, _⟩ => ⟨S_, .f32⟩
  | .hbm, ⟨11, _⟩ => ⟨S262144, .f32⟩
  | .hbm, ⟨12, _⟩ => ⟨S262144x1, .f32⟩
  | .hbm, ⟨13, _⟩ => ⟨S262144x1, .f32⟩
  | .hbm, ⟨14, _⟩ => ⟨S_, .f32⟩
  | .hbm, ⟨15, _⟩ => ⟨S262144x1, .f32⟩
  | .hbm, ⟨16, _⟩ => ⟨S262144x1, .f32⟩
  | .hbm, ⟨17, _⟩ => ⟨S_, .f32⟩
  | .hbm, ⟨18, _⟩ => ⟨S262144x1, .f32⟩
  | .hbm, ⟨19, _⟩ => ⟨S262144x1, .f32⟩
  | .hbm, ⟨20, _⟩ => ⟨S_, .f32⟩
  | .hbm, ⟨21, _⟩ => ⟨S262144x1, .f32⟩
  | .hbm, ⟨22, _⟩ => ⟨S262144x1, .f32⟩
  | .hbm, ⟨23, _⟩ => ⟨S262144x16, .f32⟩
  | .hbm, ⟨24, _⟩ => ⟨S262144x16, .f32⟩
  | .hbm, ⟨25, _⟩ => ⟨S262144x16, .f32⟩
  | .hbm, ⟨26, _⟩ => ⟨S16x256, .f32⟩
  | .hbm, ⟨27, _⟩ => ⟨S262144x256, .f32⟩
  | .hbm, ⟨28, _⟩ => ⟨S256x256, .f32⟩
  | .hbm, ⟨29, _⟩ => ⟨S262144x256, .f32⟩
  | .hbm, ⟨30, _⟩ => ⟨S1x256, .f32⟩
  | .hbm, ⟨31, _⟩ => ⟨S262144x256, .f32⟩
  | .hbm, ⟨32, _⟩ => ⟨S262144x256, .f32⟩
  | .hbm, ⟨33, _⟩ => ⟨S256x256, .f32⟩
  | .hbm, ⟨34, _⟩ => ⟨S262144x256, .f32⟩
  | .hbm, ⟨35, _⟩ => ⟨S262144x256, .f32⟩
  | .hbm, ⟨36, _⟩ => ⟨S262144x256, .f32⟩
  | .hbm, ⟨37, _⟩ => ⟨S262144x256, .f32⟩
  | .hbm, ⟨38, _⟩ => ⟨S_, .f32⟩
  | .hbm, ⟨39, _⟩ => ⟨S262144x256, .f32⟩
  | .hbm, ⟨40, _⟩ => ⟨S262144x256, .f32⟩
  | .hbm, ⟨41, _⟩ => ⟨S_, .f32⟩
  | .hbm, ⟨42, _⟩ => ⟨S262144x256, .f32⟩
  | .hbm, ⟨43, _⟩ => ⟨S262144x256, .f32⟩
  | .hbm, ⟨44, _⟩ => ⟨S_, .f32⟩
  | .hbm, ⟨45, _⟩ => ⟨S262144x256, .f32⟩
  | .hbm, ⟨46, _⟩ => ⟨S262144x256, .f32⟩
  | .hbm, ⟨47, _⟩ => ⟨S262144x256, .f32⟩
  | .hbm, ⟨48, _⟩ => ⟨S_, .f32⟩
  | .hbm, ⟨49, _⟩ => ⟨S262144, .f32⟩
  | .hbm, ⟨50, _⟩ => ⟨S262144x1, .f32⟩
  | .hbm, ⟨51, _⟩ => ⟨S262144x1, .f32⟩
  | .hbm, ⟨52, _⟩ => ⟨S_, .f32⟩
  | .hbm, ⟨53, _⟩ => ⟨S262144x1, .f32⟩
  | .hbm, ⟨54, _⟩ => ⟨S262144x1, .f32⟩
  | .hbm, ⟨55, _⟩ => ⟨S_, .f32⟩
  | .hbm, ⟨56, _⟩ => ⟨S262144x1, .f32⟩
  | .hbm, ⟨57, _⟩ => ⟨S262144x1, .f32⟩
  | .hbm, ⟨58, _⟩ => ⟨S_, .f32⟩
  | .hbm, ⟨59, _⟩ => ⟨S262144x1, .f32⟩
  | .hbm, ⟨60, _⟩ => ⟨S262144x1, .f32⟩
  | .hbm, ⟨61, _⟩ => ⟨S262144x256, .f32⟩
  | .hbm, ⟨62, _⟩ => ⟨S262144x256, .f32⟩
  | .hbm, ⟨63, _⟩ => ⟨S262144x256, .f32⟩
  | .hbm, ⟨64, _⟩ => ⟨S262144x256, .f32⟩
  | .hbm, ⟨65, _⟩ => ⟨S_, .f32⟩
  | .hbm, ⟨66, _⟩ => ⟨S262144x256, .f32⟩
  | .hbm, ⟨67, _⟩ => ⟨S262144x256, .f32⟩
  | .hbm, ⟨68, _⟩ => ⟨S262144x256, .f32⟩
  | .hbm, ⟨69, _⟩ => ⟨S_, .f32⟩
  | .hbm, ⟨70, _⟩ => ⟨S262144x256, .f32⟩
  | .hbm, ⟨71, _⟩ => ⟨S262144x256, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]

class Facts₀ : Prop where
  reducesTo_S262144x16_S262144_d1 : S262144x16.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x16_0_1 : S262144x1.BroadcastsInDim S262144x16 (![0, 1] : Fin 2 → Fin S262144x16.rank)
  transposes_S256x16_S16x256_1_0 : S256x16.Transposes [1, 0] S16x256
  transposes_S256x256_S256x256_1_0 : S256x256.Transposes [1, 0] S256x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  reducesTo_S262144x256_S262144_d1 : S262144x256.ReducesTo [1] S262144
  bcast_S262144x1_S262144x256_0_1 : S262144x1.BroadcastsInDim S262144x256 (![0, 1] : Fin 2 → Fin S262144x256.rank)
  dot_S262144x256_S256x16_S262144x16_1_0_0_1_n_n_wf : DotDims.WF S262144x256 S256x16 S262144x16 [1] [0] [0] [1] [] []
  dot_S262144x16_S16x256_S262144x256_1_0_0_1_n_n_wf : DotDims.WF S262144x16 S16x256 S262144x256 [1] [0] [0] [1] [] []
  dot_S262144x256_S256x256_S262144x256_1_0_0_1_n_n_wf : DotDims.WF S262144x256 S256x256 S262144x256 [1] [0] [0] [1] [] []

variable [Facts₀]

def dot_S262144x256_S256x16_S262144x16_1_0_0_1_n_n : DotDims S262144x256 S256x16 S262144x16 where
  lhsContracting := [1]
  rhsContracting := [0]
  lhsNonContracting := [0]
  rhsNonContracting := [1]
  lhsBatch := []
  rhsBatch := []
  wf := dot_S262144x256_S256x16_S262144x16_1_0_0_1_n_n_wf
def dot_S262144x16_S16x256_S262144x256_1_0_0_1_n_n : DotDims S262144x16 S16x256 S262144x256 where
  lhsContracting := [1]
  rhsContracting := [0]
  lhsNonContracting := [0]
  rhsNonContracting := [1]
  lhsBatch := []
  rhsBatch := []
  wf := dot_S262144x16_S16x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.Geodesic.lean ====
/-
  One row of the computation, as a function on the extended reals.

  A row `v` (256 entries) is projected onto 16 directions, `p r = ∑ k, v k · U k r`; the squared projections are damped by
  `1 / (1 + ‖p‖ + ε)` and mapped back to 256 entries through `Wt` (the low-rank curvature term). Beside it a friction term:
  the logistic function of an affine gate of two further rows `x` and `f`, scaled by `0.1` and by `1 + 0.1 · ‖v‖ / (16 + ε)`,
  multiplies `v`. The sum of the two is soft-clamped, `10 · tanh (· / 10)`.

  Both programs compute exactly this, operation by operation and in this order, so no algebraic law beyond the meaning of
  each operation joins them: a matrix product is a finite sum of products, a lane sum a finite sum, and the logistic
  function is `1 / (1 + e^(-g))`. The float words (`1.0`, `1e-6`, `0.1`, `16.000002`, `10.0`) are the same words on both
  sides and are never evaluated, except `1.0` inside the logistic function, which is the real `1`.
-/
import Idealize.ShloMosaic.PureOps.Ideal
import Idealize.ShloMosaic.PureOps.IdealRules
import Idealize.ShloMosaic.PureOps.Ideal.Laws
import Idealize.ShloMosaic.Lib.ValueIdx
import Idealize.ShloMosaic.Lib.Pipeline.Value

noncomputable section

namespace Cert.Geodesic

open Idealize.ShloMosaic Idealize.ShloMosaic.ValueIdx

/-! ## The float words -/

/-- `1.0` -/
abbrev w1 : EReal := Ideal.ofBits .f32 0x3F800000#32
/-- `1e-6` as an f32 -/
abbrev wEps : EReal := Ideal.ofBits .f32 0x358637BD#32
/-- `0.1` as an f32 -/
abbrev wTenth : EReal := Ideal.ofBits .f32 0x3DCCCCCD#32
/-- `sqrt 256 + 1e-6` as an f32 -/
abbrev wRootDim : EReal := Ideal.ofBits .f32 0x41800001#32
/-- `10.0` -/
abbrev wClamp : EReal := Ideal.ofBits .f32 0x41200000#32

/-! ## One row -/

section Row

variable (v x f : Fin 256 → EReal) (U : Fin 256 → Fin 16 → EReal) (Wt : Fin 16 → Fin 256 → EReal)
  (Gx Gf : Fin 256 → Fin 256 → EReal) (bias : Fin 256 → EReal)

/-- The row projected onto direction `r`. -/
def proj (r : Fin 16) : EReal := ∑ k : Fin 256, v k * U k r

/-- The squared length of the projection. -/
def energy : EReal := ∑ r : Fin 16, proj v U r * proj v U r

/-- The damping factor `1 / (1 + ‖p‖ + ε)`. -/
def damp : EReal := Ideal.div w1 ((w1 + Ideal.sqrt (energy v U)) + wEps)

/-- The curvature term at output entry `d`: the damped squared projections mapped back through `Wt`. -/
def curv (d : Fin 256) : EReal := ∑ r : Fin 16, ((proj v U r * proj v U r) * damp v U) * Wt r d

/-- The gate's activation at entry `d`: `x · Gx + bias + f · Gf`. -/
def gate (d : Fin 256) : EReal := ((∑ k : Fin 256, x k * Gx k d) + bias d) + ∑ k : Fin 256, f k * Gf k d

/-- The row's speed `‖v‖ / (16 + ε)`. -/
def speed : EReal := Ideal.div (Ideal.sqrt (∑ k : Fin 256, v k * v k)) wRootDim

/-- The friction coefficient at entry `d`. -/
def friction (d : Fin 256) : EReal := (Ideal.logistic (gate x f Gx Gf bias d) * wTenth) * (w1 + wTenth * speed v)

/-- The row's result at entry `d`. -/
def out (d : Fin 256) : EReal :=
  wClamp * Ideal.tanh (Ideal.div (curv v U Wt d + friction v x f Gx Gf bias d * v d) wClamp)

end Row

/-! ## The whole array -/

/-- The result array as one function of the eight argument arrays: entry `(b, d)` is row `b`'s result at `d`, the
    rows of `v`, `x`, `force` taken at `b`, the weight matrices `W`, `Wf`, `Wi` read transposed. -/
def G (a0 a1 a2 : (⟨2, ![262144, 256]⟩ : Shape).Idx → EReal) (a3 a4 : (⟨2, ![256, 16]⟩ : Shape).Idx → EReal)
    (a5 : (⟨2, ![256, 256]⟩ : Shape).Idx → EReal) (a6 : (⟨1, ![256]⟩ : Shape).Idx → EReal)
    (a7 : (⟨2, ![256, 256]⟩ : Shape).Idx → EReal) : (⟨2, ![262144, 256]⟩ : Shape).Idx → EReal :=
  fun i => out (fun k => a0 (ix2 (i 0) k)) (fun k => a1 (ix2 (i 0) k)) (fun k => a2 (ix2 (i 0) k))
    (fun k r => a3 (ix2 k r)) (fun r d => a4 (ix2 d r)) (fun k d => a5 (ix2 d k)) (fun k d => a7 (ix2 d k))
    (fun d => a6 (ix1 d)) (i 1)

/-! ## The logistic function spelt out -/

/-- `1 / (1 + e^(-g))` with the ones written as the f32 word of `1.0` is the logistic function of `g`. -/
theorem logistic_spelt (g : EReal) :
    Ideal.div (Ideal.ofBits .f32 0x3F800000#32) (Ideal.ofBits .f32 0x3F800000#32 + Ideal.exp (-g)) = Ideal.logistic g := by
  have h1 : Ideal.ofBits .f32 0x3F800000#32 = 1 := IdealRules.sign_bit.ideal_onePat .f32
  rw [h1]
  rfl

/-! ## Columns -/

section Columns
variable {α : Type}

/-- A length-`a` vector cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

end Cert.Geodesic

end
-- ==== Proof.RefRow.lean ====
/-
  The reference, read one stage at a time at an index, is the row function of `Geodesic.lean`.

  Each stage of the reference reads its operands at indices built from the result index; at an index `(b, d)` of the
  result these are `(b, k)` for a row of `v`, `x` or `force`, and `(k, r)`, `(d, r)`, `(d, k)` for the weights (the
  transposes swap the two coordinates). The lane sums start from the word of `0.0`, which is the real `0`.
-/
import proofs.«415938_j12592844112397_3_alg».proof.Proof.Gen.ReferenceIdeal.Read
import proofs.«415938_j12592844112397_3_alg».proof.Proof.Geodesic

noncomputable section

namespace Cert.Geodesic.Ref

open Cert.ReferenceIdeal Cert.ReferenceIdeal.Read Idealize.ShloMosaic Idealize.ShloMosaic.TcCoe Idealize.ShloMosaic.ValueIdx
open Cert.Geodesic

/-! ## Where each stage reads its operands -/

theorem proj_l (b : Fin 262144) (r : Fin 16) (k : Fin 256) : lidx_main_v0 (ix2 b r) k = ix2 b k := Shape.idx_ext₂ rfl rfl
theorem proj_r (b : Fin 262144) (r : Fin 16) (k : Fin 256) : ridx_main_v0 (ix2 b r) k = ix2 k r := Shape.idx_ext₂ rfl rfl
theorem col0 (b : Fin 262144) (u : Fin 1) : idx_main_call0_v2 (ix2 b u) = ix1 b :=
  funext fun a => match a with | ⟨0, _⟩ => rfl
theorem lane0 (b : Fin 262144) (k : Fin 16) : idx_main_call0_v1 (ix1 b) k = ix2 b k := Shape.idx_ext₂ rfl rfl
theorem damp_at (b : Fin 262144) (r : Fin 16) : idx_main_v9 (ix2 b r) = ix2 b (0 : Fin 1) := Shape.idx_ext₂ rfl rfl
theorem curv_l (b : Fin 262144) (d : Fin 256) (r : Fin 16) : lidx_main_v12 (ix2 b d) r = ix2 b r := Shape.idx_ext₂ rfl rfl
theorem curv_r (b : Fin 262144) (d : Fin 256) (r : Fin 16) : ridx_main_v12 (ix2 b d) r = ix2 r d := Shape.idx_ext₂ rfl rfl
theorem wt_at (r : Fin 16) (d : Fin 256) : idx_main_v11 (ix2 r d) = ix2 d r := Shape.idx_ext₂ rfl rfl
theorem gx_l (b : Fin 262144) (d k : Fin 256) : lidx_main_v14 (ix2 b d) k = ix2 b k := Shape.idx_ext₂ rfl rfl
theorem gx_r (b : Fin 262144) (d k : Fin 256) : ridx_main_v14 (ix2 b d) k = ix2 k d := Shape.idx_ext₂ rfl rfl
theorem gx_at (k d : Fin 256) : idx_main_v13 (ix2 k d) = ix2 d k := Shape.idx_ext₂ rfl rfl
theorem bias_row (b : Fin 262144) (d : Fin 256) : idx_main_v16 (ix2 b d) = ix2 (0 : Fin 1) d := Shape.idx_ext₂ rfl rfl
theorem bias_at (u : Fin 1) (d : Fin 256) : idx_main_v15 (ix2 u d) = ix1 d :=
  funext fun a => match a with | ⟨0, _⟩ => rfl
theorem gf_l (b : Fin 262144) (d k : Fin 256) : lidx_main_v19 (ix2 b d) k = ix2 b k := Shape.idx_ext₂ rfl rfl
theorem gf_r (b : Fin 262144) (d k : Fin 256) : ridx_main_v19 (ix2 b d) k = ix2 k d := Shape.idx_ext₂ rfl rfl
theorem gf_at (k d : Fin 256) : idx_main_v18 (ix2 k d) = ix2 d k := Shape.idx_ext₂ rfl rfl
theorem col1 (b : Fin 262144) (u : Fin 1) : idx_main_call1_v2 (ix2 b u) = ix1 b :=
  funext fun a => match a with | ⟨0, _⟩ => rfl
theorem lane1 (b : Fin 262144) (k : Fin 256) : idx_main_call1_v1 (ix1 b) k = ix2 b k := Shape.idx_ext₂ rfl rfl
theorem speed_at (b : Fin 262144) (d : Fin 256) : idx_main_v36 (ix2 b d) = ix2 b (0 : Fin 1) := Shape.idx_ext₂ rfl rfl

/-! ## The stages -/

section Stages

variable (x0 x1 x2 : (⟨S262144x256, .f32⟩ : BufTy).Contents (Elt Ideal)) (x3 x4 : (⟨S256x16, .f32⟩ : BufTy).Contents (Elt Ideal))
  (x5 : (⟨S256x256, .f32⟩ : BufTy).Contents (Elt Ideal)) (x6 : (⟨S256, .f32⟩ : BufTy).Contents (Elt Ideal))
  (x7 : (⟨S256x256, .f32⟩ : BufTy).Contents (Elt Ideal))

/-- `v @ U` at `(b, r)` is the row's projection onto direction `r`. -/
theorem proj_eq (b : Fin 262144) (r : Fin 16) :
    val_main_v0 (F := Ideal) x0 x3 (ix2 b r) = proj (fun k => x0 (ix2 b k)) (fun k r => x3 (ix2 k r)) r := by
  rw [val_main_v0_apply]
  simp only [proj_l, proj_r, proj]

/-- The projection's norm: the lane sum of the squares starts from the word of zero. -/
theorem norm_eq (b : Fin 262144) (u : Fin 1) :
    val_main_v1 (F := Ideal) x0 x3 (ix2 b u) = Ideal.sqrt (energy (fun k => x0 (ix2 b k)) (fun k r => x3 (ix2 k r))) := by
  rw [val_main_v1_apply, val_main_call0_v2_apply, col0, val_main_call0_v1_apply]
  simp only [lane0, val_main_call0_v0_apply, proj_eq, val_main_call0_cst_apply, Ideal.ofBits_def, Ideal.ofBits_zero_f32,
    zero_add, Ideal.mulf_def, Ideal.hostUnary_sqrt_def, energy]

/-- The damping factor of row `b`. -/
theorem damp_eq (b : Fin 262144) (u : Fin 1) :
    val_main_v7 (F := Ideal) x0 x3 (ix2 b u) = damp (fun k => x0 (ix2 b k)) (fun k r => x3 (ix2 k r)) := by
  rw [val_main_v7_apply, val_main_v6_apply, val_main_cst_1_apply, val_main_v5_apply, val_main_v3_apply, val_main_v2_apply,
    val_main_cst_apply, val_main_v4_apply, val_main_cst_0_apply, norm_eq]
  rfl

/-- The curvature term at `(b, d)`. -/
theorem curv_eq (b : Fin 262144) (d : Fin 256) :
    val_main_v12 (F := Ideal) x0 x3 x4 (ix2 b d)
      = curv (fun k => x0 (ix2 b k)) (fun k r => x3 (ix2 k r)) (fun r d => x4 (ix2 d r)) d := by
  rw [val_main_v12_apply]
  simp only [curv_l, curv_r, val_main_v10_apply, val_main_v8_apply, val_main_v9_apply, damp_at, damp_eq, val_main_v11_apply,
    wt_at, proj_eq, Ideal.mulf_def, curv]

/-- The gate's activation at `(b, d)`. -/
theorem gate_eq (b : Fin 262144) (d : Fin 256) :
    val_main_v20 (F := Ideal) x1 x2 x5 x6 x7 (ix2 b d)
      = gate (fun k => x1 (ix2 b k)) (fun k => x2 (ix2 b k)) (fun k d => x5 (ix2 d k)) (fun k d => x7 (ix2 d k))
          (fun d => x6 (ix1 d)) d := by
  rw [val_main_v20_apply, val_main_v17_apply, val_main_v14_apply, val_main_v16_apply, val_main_v15_apply, val_main_v19_apply]
  simp only [gx_l, gx_r, val_main_v13_apply, gx_at, bias_row, bias_at, gf_l, gf_r, val_main_v18_apply, gf_at,
    Ideal.addf_def, gate]

/-- The speed factor `1 + 0.1 · ‖v‖ / (16 + ε)` of row `b`. -/
theorem speed_eq (b : Fin 262144) (u : Fin 1) :
    val_main_v35 (F := Ideal) x0 (ix2 b u) = w1 + wTenth * speed (fun k => x0 (ix2 b k)) := by
  rw [val_main_v35_apply, val_main_v34_apply, val_main_cst_7_apply, val_main_v33_apply, val_main_v32_apply,
    val_main_cst_6_apply, val_main_v31_apply, val_main_v30_apply, val_main_cst_5_apply, val_main_v29_apply,
    val_main_call1_v2_apply, col1, val_main_call1_v1_apply]
  simp only [lane1, val_main_call1_v0_apply, val_main_call1_cst_apply, Ideal.ofBits_def, Ideal.ofBits_zero_f32, zero_add,
    Ideal.mulf_def, Ideal.addf_def, Ideal.hostDivf_def, Ideal.hostUnary_sqrt_def, speed]

/-- The reference's result at `(b, d)` is row `b`'s result at `d`. -/
theorem out_eq (b : Fin 262144) (d : Fin 256) :
    val_main_v44 (F := Ideal) x0 x1 x2 x3 x4 x5 x6 x7 (ix2 b d)
      = out (fun k => x0 (ix2 b k)) (fun k => x1 (ix2 b k)) (fun k => x2 (ix2 b k)) (fun k r => x3 (ix2 k r))
          (fun r d => x4 (ix2 d r)) (fun k d => x5 (ix2 d k)) (fun k d => x7 (ix2 d k)) (fun d => x6 (ix1 d)) d := by
  rw [val_main_v44_apply, val_main_v43_apply, val_main_cst_9_apply, val_main_v42_apply, val_main_v41_apply,
    val_main_v40_apply, val_main_cst_8_apply, val_main_v39_apply, curv_eq, val_main_v38_apply, val_main_v37_apply,
    val_main_v36_apply, speed_at, speed_eq, val_main_v28_apply, val_main_v27_apply, val_main_cst_4_apply,
    val_main_v26_apply, val_main_v25_apply, val_main_cst_3_apply, val_main_v24_apply, val_main_v23_apply,
    val_main_cst_2_apply, val_main_v22_apply, val_main_v21_apply, gate_eq]
  simp only [Ideal.ofBits_def, Ideal.mulf_def, Ideal.addf_def, Ideal.hostDivf_def, Ideal.hostUnary_exp_def,
    Ideal.hostUnary_tanh_def, Ideal.hostNegf_def, Ideal.negf_def, logistic_spelt, out, friction]

/-- So the reference's last stage is the whole-array function `G`. -/
theorem result_eq : val_main_v44 (F := Ideal) x0 x1 x2 x3 x4 x5 x6 x7 = G x0 x1 x2 x3 x4 x5 x6 x7 := by
  funext i
  obtain ⟨b, d, rfl⟩ : ∃ (b : Fin 262144) (d : Fin 256), i = ix2 b d := ⟨i 0, i 1, eq_ix2 i⟩
  rw [out_eq]
  rfl

end Stages

end Cert.Geodesic.Ref

end
-- ==== Proof.BodyRow.lean ====
/-
  The kernel's body at one grid point, read at an index of its output block, is the row function of `Geodesic.lean`.

  The body holds a block of 2048 rows of `v`, `x` and `force` and the whole (transposed) weights. Entry `(p, d)` of what it
  stores depends on row `p` of the three blocks only: each matrix product read at an index is the sum over the
  contracted coordinate of the operands' products, each lane sum the sum over the row, the column casts and broadcasts
  move a row's scalar along the row, and a change of float format is the identity on the extended reals.
-/
import proofs.«415938_j12592844112397_3_alg».proof.Proof.Gen.KernelIdeal.Frame
import proofs.«415938_j12592844112397_3_alg».proof.Proof.Geodesic
import Idealize.ShloMosaic.Lib.ValueIdx
import Idealize.ShloMosaic.Lib.ValueLayout
import Idealize.ShloMosaic.Lib.Pipeline.Value
import Idealize.ShloMosaic.PureOps.Ideal.Laws

noncomputable section

namespace Cert.Geodesic.Body

open Cert.KernelIdeal Cert.KernelIdeal.Gen Idealize.ShloMosaic Idealize.ShloMosaic.TcCoe Idealize.ShloMosaic.ValueIdx
open Cert.Geodesic

/-! ## The three matrix products read at an index

For each of the body's three shapes of product (rows × 256 into 16 directions; 16 directions back to 256 entries; rows × 256
into 256 entries) the operand indices at output index `(p, j)` and contraction coordinate `k` are `(p, k)` and `(k, j)`. -/

theorem down_l0 (i : S2048x16.Idx) (q : dot_S2048x256_S256x16_S2048x16_1_0_0_1_n_n.contr.Idx) :
    (dot_S2048x256_S256x16_S2048x16_1_0_0_1_n_n.lhsIdx i q 0).val = (i 0).val := by
  unfold DotDims.lhsIdx
  rw [dif_neg (show ¬(0 : Fin S2048x256.rank) ∈ dot_S2048x256_S256x16_S2048x16_1_0_0_1_n_n.lhsBatch by decide), dif_pos (show (0 : Fin S2048x256.rank) ∈ dot_S2048x256_S256x16_S2048x16_1_0_0_1_n_n.lhsNonContracting by decide)]
  rfl
theorem down_l1 (i : S2048x16.Idx) (q : dot_S2048x256_S256x16_S2048x16_1_0_0_1_n_n.contr.Idx) :
    (dot_S2048x256_S256x16_S2048x16_1_0_0_1_n_n.lhsIdx i q 1).val = (q ⟨0, by decide⟩).val :=
  dot_S2048x256_S256x16_S2048x16_1_0_0_1_n_n.lhsIdx_val_of_single rfl i q
theorem down_r0 (i : S2048x16.Idx) (q : dot_S2048x256_S256x16_S2048x16_1_0_0_1_n_n.contr.Idx) :
    (dot_S2048x256_S256x16_S2048x16_1_0_0_1_n_n.rhsIdx i q 0).val = (q ⟨0, by decide⟩).val :=
  dot_S2048x256_S256x16_S2048x16_1_0_0_1_n_n.rhsIdx_val_of_single rfl i q
theorem down_r1 (i : S2048x16.Idx) (q : dot_S2048x256_S256x16_S2048x16_1_0_0_1_n_n.contr.Idx) :
    (dot_S2048x256_S256x16_S2048x16_1_0_0_1_n_n.rhsIdx i q 1).val = (i 1).val := by
  unfold DotDims.rhsIdx
  rw [dif_neg (show ¬(1 : Fin S256x16.rank) ∈ dot_S2048x256_S256x16_S2048x16_1_0_0_1_n_n.rhsBatch by decide), dif_pos (show (1 : Fin S256x16.rank) ∈ dot_S2048x256_S256x16_S2048x16_1_0_0_1_n_n.rhsNonContracting by decide)]
  rfl

/-- Rows × 256 into 16 directions, from the zero accumulator. -/
theorem down_apply {φ₁ φ₂ : FTy} (l : FVec Ideal S2048x256 φ₁) (r : FVec Ideal S256x16 φ₂) (p : Fin 2048) (j : Fin 16) :
    matmul dot_S2048x256_S256x16_S2048x16_1_0_0_1_n_n none l r (constant (F := Ideal) S2048x16 .f32 0x00000000#32) (ix2 p j)
      = ∑ k : Fin 256, l (ix2 p k) * r (ix2 k j) := by
  simp only [matmul]
  rw [Ideal.matmul_constant_zero_apply, ← Equiv.sum_comp (contrEquiv1 dot_S2048x256_S256x16_S2048x16_1_0_0_1_n_n 256 rfl rfl).symm]
  refine Finset.sum_congr rfl fun k _ => ?_
  have hk := contrEquiv1_symm_val dot_S2048x256_S256x16_S2048x16_1_0_0_1_n_n 256 rfl rfl k
  have el : dot_S2048x256_S256x16_S2048x16_1_0_0_1_n_n.lhsIdx (ix2 p j) ((contrEquiv1 dot_S2048x256_S256x16_S2048x16_1_0_0_1_n_n 256 rfl rfl).symm k) = ix2 p k := funext fun a => Fin.ext (by
    match a with
    | ⟨0, _⟩ => exact down_l0 _ _
    | ⟨1, _⟩ => exact (down_l1 _ _).trans hk)
  have er : dot_S2048x256_S256x16_S2048x16_1_0_0_1_n_n.rhsIdx (ix2 p j) ((contrEquiv1 dot_S2048x256_S256x16_S2048x16_1_0_0_1_n_n 256 rfl rfl).symm k) = ix2 k j := funext fun a => Fin.ext (by
    match a with
    | ⟨0, _⟩ => exact (down_r0 _ _).trans hk
    | ⟨1, _⟩ => exact down_r1 _ _)
  rw [el, er]

theorem up_l0 (i : S2048x256.Idx) (q : dot_S2048x16_S16x256_S2048x256_1_0_0_1_n_n.contr.Idx) :
    (dot_S2048x16_S16x256_S2048x256_1_0_0_1_n_n.lhsIdx i q 0).val = (i 0).val := by
  unfold DotDims.lhsIdx
  rw [dif_neg (show ¬(0 : Fin S2048x16.rank) ∈ dot_S2048x16_S16x256_S2048x256_1_0_0_1_n_n.lhsBatch by decide), dif_pos (show (0 : Fin S2048x16.rank) ∈ dot_S2048x16_S16x256_S2048x256_1_0_0_1_n_n.lhsNonContracting by decide)]
  rfl
theorem up_l1 (i : S2048x256.Idx) (q : dot_S2048x16_S16x256_S2048x256_1_0_0_1_n_n.contr.Idx) :
    (dot_S2048x16_S16x256_S2048x256_1_0_0_1_n_n.lhsIdx i q 1).val = (q ⟨0, by decide⟩).val :=
  dot_S2048x16_S16x256_S2048x256_1_0_0_1_n_n.lhsIdx_val_of_single rfl i q
theorem up_r0 (i : S2048x256.Idx) (q : dot_S2048x16_S16x256_S2048x256_1_0_0_1_n_n.contr.Idx) :
    (dot_S2048x16_S16x256_S2048x256_1_0_0_1_n_n.rhsIdx i q 0).val = (q ⟨0, by decide⟩).val :=
  dot_S2048x16_S16x256_S2048x256_1_0_0_1_n_n.rhsIdx_val_of_single rfl i q
theorem up_r1 (i : S2048x256.Idx) (q : dot_S2048x16_S16x256_S2048x256_1_0_0_1_n_n.contr.Idx) :
    (dot_S2048x16_S16x256_S2048x256_1_0_0_1_n_n.rhsIdx i q 1).val = (i 1).val := by
  unfold DotDims.rhsIdx
  rw [dif_neg (show ¬(1 : Fin S16x256.rank) ∈ dot_S2048x16_S16x256_S2048x256_1_0_0_1_n_n.rhsBatch by decide), dif_pos (show (1 : Fin S16x256.rank) ∈ dot_S2048x16_S16x256_S2048x256_1_0_0_1_n_n.rhsNonContracting by decide)]
  rfl

/-- 16 directions back to 256 entries, from the zero accumulator. -/
theorem up_apply {φ₁ φ₂ : FTy} (l : FVec Ideal S2048x16 φ₁) (r : FVec Ideal S16x256 φ₂) (p : Fin 2048) (j : Fin 256) :
    matmul dot_S2048x16_S16x256_S2048x256_1_0_0_1_n_n none l r (constant (F := Ideal) S2048x256 .f32 0x00000000#32) (ix2 p j)
      = ∑ k : Fin 16, l (ix2 p k) * r (ix2 k j) := by
  simp only [matmul]
  rw [Ideal.matmul_constant_zero_apply, ← Equiv.sum_comp (contrEquiv1 dot_S2048x16_S16x256_S2048x256_1_0_0_1_n_n 16 rfl rfl).symm]
  refine Finset.sum_congr rfl fun k _ => ?_
  have hk := contrEquiv1_symm_val dot_S2048x16_S16x256_S2048x256_1_0_0_1_n_n 16 rfl rfl k
  have el : dot_S2048x16_S16x256_S2048x256_1_0_0_1_n_n.lhsIdx (ix2 p j) ((contrEquiv1 dot_S2048x16_S16x256_S2048x256_1_0_0_1_n_n 16 rfl rfl).symm k) = ix2 p k := funext fun a => Fin.ext (by
    match a with
    | ⟨0, _⟩ => exact up_l0 _ _
    | ⟨1, _⟩ => exact (up_l1 _ _).trans hk)
  have er : dot_S2048x16_S16x256_S2048x256_1_0_0_1_n_n.rhsIdx (ix2 p j) ((contrEquiv1 dot_S2048x16_S16x256_S2048x256_1_0_0_1_n_n 16 rfl rfl).symm k) = ix2 k j := funext fun a => Fin.ext (by
    match a with
    | ⟨0, _⟩ => exact (up_r0 _ _).trans hk
    | ⟨1, _⟩ => exact up_r1 _ _)
  rw [el, er]

theorem sq_l0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem sq_l1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem sq_r0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem sq_r1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Rows × 256 into 256 entries, from the zero accumulator. -/
theorem sq_apply {φ₁ φ₂ : FTy} (l : FVec Ideal S2048x256 φ₁) (r : FVec Ideal S256x256 φ₂) (p : Fin 2048) (j : Fin 256) :
    matmul dot_S2048x256_S256x256_S2048x256_1_0_0_1_n_n none l r (constant (F := Ideal) S2048x256 .f32 0x00000000#32) (ix2 p j)
      = ∑ k : Fin 256, l (ix2 p k) * r (ix2 k j) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p j) ((contrEquiv1 dot_S2048x256_S256x256_S2048x256_1_0_0_1_n_n 256 rfl rfl).symm k) = ix2 p k := funext fun a => Fin.ext (by
    match a with
    | ⟨0, _⟩ => exact sq_l0 _ _
    | ⟨1, _⟩ => exact (sq_l1 _ _).trans hk)
  have er : dot_S2048x256_S256x256_S2048x256_1_0_0_1_n_n.rhsIdx (ix2 p j) ((contrEquiv1 dot_S2048x256_S256x256_S2048x256_1_0_0_1_n_n 256 rfl rfl).symm k) = ix2 k j := funext fun a => Fin.ext (by
    match a with
    | ⟨0, _⟩ => exact (sq_r0 _ _).trans hk
    | ⟨1, _⟩ => exact sq_r1 _ _)
  rw [el, er]

/-! ## The two lane sums, as columns -/

/-- The sum along a row of 16, kept as a column. -/
theorem laneSum16 (src : FVec Ideal S2048x16 .f32) (p : Fin 2048) (u : Fin 1) :
    shapeCast S2048x1 (multiReduction .add [1] S2048 src 0x00000000#32 reduces_S2048x16_S2048 (.inl rfl) rfl)
        shapeCasts_S2048_S2048x1 (ix2 p u) = ∑ k : Fin 16, src (ix2 p k) := by
  refine (shapeCast_a_a1_apply _ _ p u).trans ?_
  refine (Ideal.multiReduction_add_single src 0x00000000#32 reduces_S2048x16_S2048 (.inl rfl) rfl (ix1 p)).trans ?_
  refine Finset.sum_congr rfl fun k _ => ?_
  exact congrArg src (Shape.idx_ext₂ rfl rfl)

/-- The sum along a row of 256, kept as a column. -/
theorem laneSum256 (src : FVec Ideal S2048x256 .f32) (p : Fin 2048) (u : Fin 1) :
    shapeCast S2048x1 (multiReduction .add [1] S2048 src 0x00000000#32 reduces_S2048x256_S2048 (.inl rfl) rfl)
        shapeCasts_S2048_S2048x1 (ix2 p u) = ∑ k : Fin 256, src (ix2 p k) := by
  refine (shapeCast_a_a1_apply _ _ p u).trans ?_
  refine (Ideal.multiReduction_add_single src 0x00000000#32 reduces_S2048x256_S2048 (.inl rfl) rfl (ix1 p)).trans ?_
  refine Finset.sum_congr rfl fun k _ => ?_
  exact congrArg src (Shape.idx_ext₂ rfl rfl)

/-- A scalar float word at the extended reals. -/
theorem word_eq (w : BitVec 32) : Scalar.ofBits (F := Ideal) .f32 w = Ideal.ofBits .f32 w := rfl

/-! ## The payloads at an index -/

section Payloads

variable (v0 v1 v2 : FVec Ideal S2048x256 .f32) (v3 : FVec Ideal S256x16 .bf16) (v5 : FVec Ideal S16x256 .bf16)
  (v7 v11 : FVec Ideal S256x256 .bf16) (v9 : FVec Ideal S1x256 .f32)

/-- The curvature term of row `p` of the block, at entry `d`. -/
theorem curv_block (p : Fin 2048) (d : Fin 256) :
    k0_pay3 (F := Ideal) v0 v3 v5 (ix2 p d)
      = curv (fun k => v0 (ix2 p k)) (fun k r => v3 (ix2 k r)) (fun r d => v5 (ix2 r d)) d := by
  unfold k0_pay3
  simp only [up_apply, down_apply, truncf_apply, mulf_apply, shapeCast_self, broadcastTo_a1_ab_apply, divf_apply, addf_apply,
    broadcast_apply, sqrt, word_eq]
  rw [laneSum16]
  simp only [mulf_apply, down_apply, truncf_apply, shapeCast_self, Ideal.sqrt_def, curv, damp, energy, proj]

/-- The first half of the gate's activation: `x`'s row through the first gate matrix, plus the bias. -/
theorem halfgate_block (p : Fin 2048) (d : Fin 256) :
    k0_pay5 (F := Ideal) v1 v7 v9 (ix2 p d) = (∑ k : Fin 256, v1 (ix2 p k) * v7 (ix2 k d)) + v9 (ix2 (0 : Fin 1) d) := by
  unfold k0_pay5
  simp only [addf_apply, sq_apply, truncf_apply, shapeCast_self, broadcastTo_1b_ab_apply]

/-- What the body stores, at entry `(p, d)` of the block: row `p`'s result at `d`. -/
theorem stored_block (p : Fin 2048) (d : Fin 256) :
    k0_pay1 (F := Ideal) v0 (k0_pay2 v11) (k0_pay3 v0 v3 v5) (k0_pay4 v2) (k0_pay5 v1 v7 v9)
        (constant S2048x256 .f32 0x00000000#32) (ix2 p d)
      = out (fun k => v0 (ix2 p k)) (fun k => v1 (ix2 p k)) (fun k => v2 (ix2 p k)) (fun k r => v3 (ix2 k r))
          (fun r d => v5 (ix2 r d)) (fun k d => v7 (ix2 k d)) (fun k d => v11 (ix2 k d)) (fun d => v9 (ix2 (0 : Fin 1) d)) d := by
  unfold k0_pay1 k0_pay2 k0_pay4
  simp only [mulf_apply, addf_apply, divf_apply, broadcast_apply, tanh, logistic, sqrt, sq_apply, truncf_apply, shapeCast_self,
    broadcastTo_a1_ab_apply, word_eq, curv_block, halfgate_block]
  rw [laneSum256]
  simp only [mulf_apply, Ideal.sqrt_def, Ideal.tanh_def, Ideal.logistic_def, out, friction, gate, speed]

end Payloads

/-! ## The stored block -/

theorem zeros2 : (![0, 0] : Fin 2 → Nat) = fun _ => 0 := funext fun a => by fin_cases a <;> rfl

/-- The body's output buffer after the body, at entry `(p, d)`: its one store covers the buffer, and every load reads a
    whole input buffer. -/
theorem block_apply (X0 X1 X2 : FVec Ideal S2048x256 .f32) (X3 : FVec Ideal S256x16 .bf16) (X4 : FVec Ideal S16x256 .bf16)
    (X5 : FVec Ideal S256x256 .bf16) (X6 : FVec Ideal S1x256 .f32) (X7 : FVec Ideal S256x256 .bf16) (p : Fin 2048) (d : Fin 256) :
    out0_8 (F := Ideal) X0 X1 X2 X3 X4 X5 X6 X7 (ix2 p d)
      = out (fun k => X0 (ix2 p k)) (fun k => X1 (ix2 p k)) (fun k => X2 (ix2 p k)) (fun k r => X3 (ix2 k r))
          (fun r d => X4 (ix2 r d)) (fun k d => X5 (ix2 k d)) (fun k d => X7 (ix2 k d)) (fun d => X6 (ix2 (0 : Fin 1) d)) d := by
  unfold out0_8
  rw [View.canon_unit_zero zeros2]
  simp only [View.ld_unit_zero (S := S2048x256) zeros2, View.ld_unit_zero (S := S256x16) zeros2,
    View.ld_unit_zero (S := S16x256) zeros2, View.ld_unit_zero (S := S256x256) zeros2, View.ld_unit_zero (S := S1x256) zeros2]
  exact stored_block X0 X1 X2 X3 X4 X5 X7 X6 p d

end Cert.Geodesic.Body

end
-- ==== Proof.Blocks.lean ====
/-
  From the body's blocks to the whole result array.

  The grid has 128 points; point `t` stages rows `2048 t … 2048 t + 2047` of `v`, `x` and `force` and writes back the same rows
  of the result, while the five weight operands are staged whole at every point. Before the region the host transposes
  `W`, `Wf` and `Wi`, narrows them and `U` to bf16 (the identity on the extended reals) and reshapes the bias to one row.
  So what point `t` writes back is block `t` of the whole-array function `G` of `Geodesic.lean` at the arguments, the 128
  blocks cover the array, and the array ends holding `G`.
-/
import proofs.«415938_j12592844112397_3_alg».proof.Proof.Gen.KernelIdeal.Value
import proofs.«415938_j12592844112397_3_alg».proof.Proof.BodyRow
import Idealize.ShloMosaic.Lib.StableHlo.Run

noncomputable section

namespace Cert.Geodesic.Kernel

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.Geodesic

variable (m : (ℓ : Loc nD τ sig) → Buf (Elt Ideal) ℓ) (ρ : Dev nD → PrngReg)

/-! ## The argument arrays, by their literal types -/

abbrev argV (c : Dev nD) : FVec Ideal S262144x256 .f32 := m ((c : Thread nD τ).loc main_arg0)
abbrev argX (c : Dev nD) : FVec Ideal S262144x256 .f32 := m ((c : Thread nD τ).loc main_arg1)
abbrev argF (c : Dev nD) : FVec Ideal S262144x256 .f32 := m ((c : Thread nD τ).loc main_arg2)
abbrev argU (c : Dev nD) : FVec Ideal S256x16 .f32 := m ((c : Thread nD τ).loc main_arg3)
abbrev argW (c : Dev nD) : FVec Ideal S256x16 .f32 := m ((c : Thread nD τ).loc main_arg4)
abbrev argWf (c : Dev nD) : FVec Ideal S256x256 .f32 := m ((c : Thread nD τ).loc main_arg5)
abbrev argB (c : Dev nD) : FVec Ideal S256 .f32 := m ((c : Thread nD τ).loc main_arg6)
abbrev argWi (c : Dev nD) : FVec Ideal S256x256 .f32 := m ((c : Thread nD τ).loc main_arg7)

/-- The result array the kernel's run ends with: `G` of the eight arguments. -/
abbrev result (c : Dev nD) : Buf (Elt Ideal) ((c : Thread nD τ).loc main_v8) :=
  G (argV m c) (argX m c) (argF m c) (argU m c) (argW m c) (argWf m c) (argB m c) (argWi m c)

/-! ## The grid's index maps -/

/-- Decided over the 128 points: the three streamed inputs and the output are at block `(t, 0)`, the five resident
    operands at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## The operands the host prepares -/

/-- `U` narrowed. -/
theorem entry_U (c : Dev nD) : (V m c main_v0 : FVec Ideal S256x16 .bf16) = truncf .bf16 (argU m c) bitsLt_bf16_f32 := by
  dsimp only [V, hostOps0]; after_results <;> rfl

/-- `W` transposed and narrowed. -/
theorem entry_Wt (c : Dev nD) : (V m c main_v2 : FVec Ideal S16x256 .bf16)
    = truncf .bf16 (transpose S16x256 [1, 0] (argW m c) transposes_S256x16_S16x256_1_0) bitsLt_bf16_f32 := by
  dsimp only [V, hostOps0]; after_results <;> rfl

/-- `Wf` transposed and narrowed. -/
theorem entry_Gx (c : Dev nD) : (V m c main_v4 : FVec Ideal S256x256 .bf16)
    = truncf .bf16 (transpose S256x256 [1, 0] (argWf m c) transposes_S256x256_S256x256_1_0) bitsLt_bf16_f32 := by
  dsimp only [V, hostOps0]; after_results <;> rfl

/-- `Wi` transposed and narrowed. -/
theorem entry_Gf (c : Dev nD) : (V m c main_v6 : FVec Ideal S256x256 .bf16)
    = truncf .bf16 (transpose S256x256 [1, 0] (argWi m c) transposes_S256x256_S256x256_1_0) bitsLt_bf16_f32 := by
  dsimp only [V, hostOps0]; after_results <;> rfl

/-- The bias as one row. -/
theorem entry_bias (c : Dev nD) : (V m c main_v7 : FVec Ideal S1x256 .f32) = shapeCast S1x256 (argB m c) shapeCasts_S256_S1x256 := by
  dsimp only [V, hostOps0]; after_results <;> rfl

/-! ## The blocks the body is given, read at an index -/

/-- Row `p` of point `t`'s block is row `2048 t + p` of the array. -/
def rowOf (t : Fin cfg0.N) (p : Fin 2048) : Fin 262144 :=
  ⟨t.val * 2048 + p.val, by have := t.isLt; have hN : cfg0.N = 128 := N_0; have := p.isLt; omega⟩

theorem block_V (c : Dev nD) (t : Fin cfg0.N) (p : Fin 2048) (k : Fin 256) :
    (iblk m c 0 t : FVec Ideal S2048x256 .f32) (ix2 p k) = argV m c (ix2 (rowOf t p) k) := by
  obtain ⟨e0, e1, -⟩ := index_facts t
  show V m c main_arg0 (((cfg0.win 0).blk t).view.emb (ix2 p k)) = _
  rw [V_main_arg0]
  refine congrArg (argV m c) (Shape.idx_ext₂ ?_ ?_)
  · show win0_0.index t (0 : Fin 2) * 2048 + 1 * p.val = t.val * 2048 + p.val
    rw [e0]; omega
  · show win0_0.index t (1 : Fin 2) * 256 + 1 * k.val = k.val
    rw [e1]; omega

theorem block_X (c : Dev nD) (t : Fin cfg0.N) (p : Fin 2048) (k : Fin 256) :
    (iblk m c 1 t : FVec Ideal S2048x256 .f32) (ix2 p k) = argX m c (ix2 (rowOf t p) k) := by
  obtain ⟨-, -, e0, e1, -⟩ := index_facts t
  show V m c main_arg1 (((cfg0.win 1).blk t).view.emb (ix2 p k)) = _
  rw [V_main_arg1]
  refine congrArg (argX m c) (Shape.idx_ext₂ ?_ ?_)
  · show win0_1.index t (0 : Fin 2) * 2048 + 1 * p.val = t.val * 2048 + p.val
    rw [e0]; omega
  · show win0_1.index t (1 : Fin 2) * 256 + 1 * k.val = k.val
    rw [e1]; omega

theorem block_F (c : Dev nD) (t : Fin cfg0.N) (p : Fin 2048) (k : Fin 256) :
    (iblk m c 2 t : FVec Ideal S2048x256 .f32) (ix2 p k) = argF m c (ix2 (rowOf t p) k) := by
  obtain ⟨-, -, -, -, e0, e1, -⟩ := index_facts t
  show V m c main_arg2 (((cfg0.win 2).blk t).view.emb (ix2 p k)) = _
  rw [V_main_arg2]
  refine congrArg (argF m c) (Shape.idx_ext₂ ?_ ?_)
  · show win0_2.index t (0 : Fin 2) * 2048 + 1 * p.val = t.val * 2048 + p.val
    rw [e0]; omega
  · show win0_2.index t (1 : Fin 2) * 256 + 1 * k.val = k.val
    rw [e1]; omega

/-- The projection matrix, whole at every point. -/
theorem block_U (c : Dev nD) (t : Fin cfg0.N) (k : Fin 256) (r : Fin 16) :
    (iblk m c 3 t : FVec Ideal S256x16 .bf16) (ix2 k r) = argU m c (ix2 k r) := by
  obtain ⟨-, -, -, -, -, -, e0, e1, -⟩ := index_facts t
  show V m c main_v0 (((cfg0.win 3).blk t).view.emb (ix2 k r)) = _
  rw [entry_U]
  refine (congrArg (truncf .bf16 (argU m c) bitsLt_bf16_f32) (Shape.idx_ext₂ (y := ix2 k r) ?_ ?_)).trans ?_
  · show win0_3.index t (0 : Fin 2) * 256 + 1 * k.val = k.val
    rw [e0]; omega
  · show win0_3.index t (1 : Fin 2) * 16 + 1 * r.val = r.val
    rw [e1]; omega
  · rw [truncf_apply]

/-- The map back to 256 entries: `W` read transposed. -/
theorem block_Wt (c : Dev nD) (t : Fin cfg0.N) (r : Fin 16) (d : Fin 256) :
    (iblk m c 4 t : FVec Ideal S16x256 .bf16) (ix2 r d) = argW m c (ix2 d r) := by
  obtain ⟨-, -, -, -, -, -, -, -, e0, e1, -⟩ := index_facts t
  show V m c main_v2 (((cfg0.win 4).blk t).view.emb (ix2 r d)) = _
  rw [entry_Wt]
  refine (congrArg (truncf .bf16 (transpose S16x256 [1, 0] (argW m c) transposes_S256x16_S16x256_1_0) bitsLt_bf16_f32)
    (Shape.idx_ext₂ (y := ix2 r d) ?_ ?_)).trans ?_
  · show win0_4.index t (0 : Fin 2) * 16 + 1 * r.val = r.val
    rw [e0]; omega
  · show win0_4.index t (1 : Fin 2) * 256 + 1 * d.val = d.val
    rw [e1]; omega
  · rw [truncf_apply, transpose_ix2_apply]

/-- The first gate matrix: `Wf` read transposed. -/
theorem block_Gx (c : Dev nD) (t : Fin cfg0.N) (k d : Fin 256) :
    (iblk m c 5 t : FVec Ideal S256x256 .bf16) (ix2 k d) = argWf m c (ix2 d k) := by
  obtain ⟨-, -, -, -, -, -, -, -, -, -, e0, e1, -⟩ := index_facts t
  show V m c main_v4 (((cfg0.win 5).blk t).view.emb (ix2 k d)) = _
  rw [entry_Gx]
  refine (congrArg (truncf .bf16 (transpose S256x256 [1, 0] (argWf m c) transposes_S256x256_S256x256_1_0) bitsLt_bf16_f32)
    (Shape.idx_ext₂ (y := ix2 k d) ?_ ?_)).trans ?_
  · show win0_5.index t (0 : Fin 2) * 256 + 1 * k.val = k.val
    rw [e0]; omega
  · show win0_5.index t (1 : Fin 2) * 256 + 1 * d.val = d.val
    rw [e1]; omega
  · rw [truncf_apply, transpose_ix2_apply]

/-- The bias row. -/
theorem block_bias (c : Dev nD) (t : Fin cfg0.N) (u : Fin 1) (d : Fin 256) :
    (iblk m c 6 t : FVec Ideal S1x256 .f32) (ix2 u d) = argB m c (ix1 d) := by
  obtain ⟨-, -, -, -, -, -, -, -, -, -, -, -, e0, e1, -⟩ := index_facts t
  show V m c main_v7 (((cfg0.win 6).blk t).view.emb (ix2 u d)) = _
  rw [entry_bias]
  refine (congrArg (shapeCast S1x256 (argB m c) shapeCasts_S256_S1x256) (Shape.idx_ext₂ (y := ix2 u d) ?_ ?_)).trans ?_
  · show win0_6.index t (0 : Fin 2) * 1 + 1 * u.val = u.val
    rw [e0]; omega
  · show win0_6.index t (1 : Fin 2) * 256 + 1 * d.val = d.val
    rw [e1]; omega
  · exact shapeCast_a_1a_apply _ _ u d

/-- The second gate matrix: `Wi` read transposed. -/
theorem block_Gf (c : Dev nD) (t : Fin cfg0.N) (k d : Fin 256) :
    (iblk m c 7 t : FVec Ideal S256x256 .bf16) (ix2 k d) = argWi m c (ix2 d k) := by
  obtain ⟨-, -, -, -, -, -, -, -, -, -, -, -, -, -, e0, e1, -⟩ := index_facts t
  show V m c main_v6 (((cfg0.win 7).blk t).view.emb (ix2 k d)) = _
  rw [entry_Gf]
  refine (congrArg (truncf .bf16 (transpose S256x256 [1, 0] (argWi m c) transposes_S256x256_S256x256_1_0) bitsLt_bf16_f32)
    (Shape.idx_ext₂ (y := ix2 k d) ?_ ?_)).trans ?_
  · show win0_7.index t (0 : Fin 2) * 256 + 1 * k.val = k.val
    rw [e0]; omega
  · show win0_7.index t (1 : Fin 2) * 256 + 1 * d.val = d.val
    rw [e1]; omega
  · rw [truncf_apply, transpose_ix2_apply]

/-! ## What a point writes back -/

/-- Point `t` writes back block `t` of `G` at the arguments. -/
theorem flushed_eq (c : Dev nD) (t : Fin cfg0.N) :
    (dats m 0 c).flushed 8 t = ((cfg0.win 8).blk t).view.read (Elt Ideal) (result m c) := by
  obtain ⟨-, -, -, -, -, -, -, -, -, -, -, -, -, -, -, -, e0, e1⟩ := index_facts t
  rw [Cert.KernelIdeal.Value.flushed8]
  funext j
  obtain ⟨p, d, rfl⟩ : ∃ (p : Fin 2048) (d : Fin 256), j = ix2 p d := ⟨j 0, j 1, eq_ix2 j⟩
  show out0_8 (iblk m c 0 t) (iblk m c 1 t) (iblk m c 2 t) (iblk m c 3 t) (iblk m c 4 t) (iblk m c 5 t) (iblk m c 6 t)
      (iblk m c 7 t) (ix2 p d) = result m c (((cfg0.win 8).blk t).view.emb (ix2 p d))
  refine (Body.block_apply (iblk m c 0 t) (iblk m c 1 t) (iblk m c 2 t) (iblk m c 3 t) (iblk m c 4 t) (iblk m c 5 t)
    (iblk m c 6 t) (iblk m c 7 t) p d).trans ?_
  simp only [block_V, block_X, block_F, block_U, block_Wt, block_Gx, block_bias, block_Gf]
  refine Eq.trans ?_ (congrArg (result m c) (Shape.idx_ext₂ (x := ix2 (rowOf t p) d) ?_ ?_))
  · rfl
  · show t.val * 2048 + p.val = win0_8.index t (0 : Fin 2) * 2048 + 1 * p.val
    rw [e0]; omega
  · show d.val = win0_8.index t (1 : Fin 2) * 256 + 1 * d.val
    rw [e1]; omega

/-! ## The blocks cover the array -/

/-- An index of the array is in point `t`'s block iff each coordinate is in the block's range on its axis. -/
theorem mem_block (t : Fin cfg0.N) (i : S262144x256.Idx) :
    i ∈ ((cfg0.win 8).blk t).view.set ↔ ∀ a : Fin 2, win0_8.index t a * S2048x256.size a ≤ (i a).val
      ∧ (i a).val < win0_8.index t a * S2048x256.size a + S2048x256.size a := by
  show i ∈ ((View.whole main_v8).slice (win0_8.rect t)).set ↔ _
  rw [View.set_slice_whole, Rect.mem_set_unit]
  exact Iff.rfl

/-- Row `b` is in the block of point `b / 2048`. -/
theorem covered (i : S262144x256.Idx) :
    ∃ t : Fin cfg0.N, (cfg0.win 8).flush t = true ∧ i ∈ ((cfg0.win 8).blk t).view.set := by
  have hN : cfg0.N = 128 := N_0
  have hi0 : (i 0).val < 262144 := (i 0).isLt
  have hi1 : (i 1).val < 256 := (i 1).isLt
  obtain ⟨t, ht⟩ : ∃ t : Fin cfg0.N, t.val = (i 0).val / 2048 := ⟨⟨(i 0).val / 2048, by omega⟩, rfl⟩
  obtain ⟨-, -, -, -, -, -, -, -, -, -, -, -, -, -, -, -, e0, e1⟩ := index_facts t
  refine ⟨t, flush0_8 t, ?_⟩
  rw [mem_block]
  intro a
  match a with
  | ⟨0, _⟩ =>
    show win0_8.index t (0 : Fin 2) * 2048 ≤ (i 0).val ∧ (i 0).val < win0_8.index t (0 : Fin 2) * 2048 + 2048
    rw [e0, ht]; omega
  | ⟨1, _⟩ =>
    show win0_8.index t (1 : Fin 2) * 256 ≤ (i 1).val ∧ (i 1).val < win0_8.index t (1 : Fin 2) * 256 + 256
    rw [e1]; omega

/-- So the result array ends holding `G` of the arguments. -/
theorem final (c : Dev nD) : (dats m 0 c).arrAt 8 cfg0.N = result m c :=
  (dats m 0 c).arrAt_eq_of_cover 8 (result m c) (fun t _ => flushed_eq m c t) covered

/-! ## The run -/

/-- Every weakly fair execution of the kernel's program ends with the result array at `G` of the arguments and the
    arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.Geodesic.Kernel

end
-- ==== Proof.lean ====
/-
  The kernel and its reference are one function of their arguments over the extended reals.

  Row by row, both compute `10 · tanh ((curv + friction · v) / 10)`: the curvature term is the row's squared projections onto 16
  directions, damped by `1 / (1 + ‖p‖ + ε)` and mapped back through `Wᵀ`; the friction coefficient is the logistic function of
  `x · Wfᵀ + bias + force · Wiᵀ`, times `0.1 · (1 + 0.1 · ‖v‖ / (16 + ε))`. The kernel does this on blocks of 2048 rows with
  the weights transposed and narrowed to bf16 beforehand; the reference on the whole arrays, its logistic function spelt
  `1 / (1 + e^(-g))`. Over the extended reals a change of float format is the identity, a matrix product and a lane sum are
  finite sums, and the two spellings of the logistic function agree, so both result arrays are the function `G` of
  `Proof/Geodesic.lean`: the reference's by `Proof/RefRow.lean`, the kernel's by `Proof/BodyRow.lean` (one block) and
  `Proof/Blocks.lean` (the 128 blocks cover the array). No step uses that the inputs are finite.
-/
import proofs.«415938_j12592844112397_3_alg».proof.Defs
import proofs.«415938_j12592844112397_3_alg».proof.Proof.Gen.Kernel
import proofs.«415938_j12592844112397_3_alg».proof.Proof.Gen.Kernel.Skeleton
import proofs.«415938_j12592844112397_3_alg».proof.Proof.Gen.Kernel.Launch
import proofs.«415938_j12592844112397_3_alg».proof.Proof.Gen.Kernel.Points
import proofs.«415938_j12592844112397_3_alg».proof.Proof.Gen.Kernel.Frame
import proofs.«415938_j12592844112397_3_alg».proof.Proof.Gen.KernelIdeal
import proofs.«415938_j12592844112397_3_alg».proof.Proof.Gen.KernelIdeal.Skeleton
import proofs.«415938_j12592844112397_3_alg».proof.Proof.Gen.KernelIdeal.Launch
import proofs.«415938_j12592844112397_3_alg».proof.Proof.Gen.KernelIdeal.Points
import proofs.«415938_j12592844112397_3_alg».proof.Proof.Gen.KernelIdeal.Frame
import proofs.«415938_j12592844112397_3_alg».proof.Proof.Gen.ReferenceIdeal
import proofs.«415938_j12592844112397_3_alg».proof.Proof.Gen.Pre_finite_inputs
import proofs.«415938_j12592844112397_3_alg».proof.Proof.Gen.KernelIdeal.Value
import proofs.«415938_j12592844112397_3_alg».proof.Proof.Gen.ReferenceIdeal.Run
import proofs.«415938_j12592844112397_3_alg».proof.Proof.Gen.ReferenceIdeal.Read
import proofs.«415938_j12592844112397_3_alg».proof.Proof.RefRow
import proofs.«415938_j12592844112397_3_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments the kernel's result array ends at `G` of its arguments (`Kernel.run`) and the
    reference's at its last stage, which is `G` of its own (`Ref.result_eq`). -/
theorem algebraic : Cert.algebraic_KernelIdeal_ReferenceIdeal := by
  intro m ρ m' ρ' _ hagree
  refine ⟨fun c => Cert.Geodesic.Kernel.result m c, Cert.Geodesic.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v44_eq, Cert.Geodesic.Ref.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
